-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x256 .f32) (main_arg1 : FVec F S65536x256 .f32) (main_arg2 : FVec F S65536x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  main_v13
-- ==== Kernel.lean ====
abbrev S65536x256 : Shape := ⟨2, ![65536, 256]⟩
abbrev S1x1 : Shape := ⟨2, ![1, 1]⟩
abbrev S2048x256 : Shape := ⟨2, ![2048, 256]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x256 : Shape := ⟨2, ![65536, 256]⟩
abbrev S_ : Shape := ⟨0, ![]⟩
abbrev S65536 : Shape := ⟨1, ![65536]⟩

abbrev nBuf : Space → Nat
  | .hbm => 59
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S65536x256, .f32⟩
  | .hbm, ⟨5, _⟩ => ⟨S_, .f32⟩
  | .hbm, ⟨6, _⟩ => ⟨S65536, .f32⟩
  | .hbm, ⟨7, _⟩ => ⟨S65536, .f32⟩
  | .hbm, ⟨8, _⟩ => ⟨S65536x256, .f32⟩
  | .hbm, ⟨9, _⟩ => ⟨S65536x256, .f32⟩
  | .hbm, ⟨10, _⟩ => ⟨S_, .f32⟩
  | .hbm, ⟨11, _⟩ => ⟨S65536, .f32⟩
  | .hbm, ⟨12, _⟩ => ⟨S65536, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S65536, .f32⟩
  | .hbm, ⟨17, _⟩ => ⟨S65536, .f32⟩
  | .hbm, ⟨18, _⟩ => ⟨S_, .f32⟩
  | .hbm, ⟨19, _⟩ => ⟨S65536, .f32⟩
  | .hbm, ⟨20, _⟩ => ⟨S65536, .f32⟩
  | .hbm, ⟨21, _⟩ => ⟨S65536, .f32⟩
  | .hbm, ⟨22, _⟩ => ⟨S_, .f32⟩
  | .hbm, ⟨23, _⟩ => ⟨S65536, .f32⟩
  | .hbm, ⟨24, _⟩ => ⟨S65536, .f32⟩
  | .hbm, ⟨25, _⟩ => ⟨S_, .f32⟩
  | .hbm, ⟨26, _⟩ => ⟨S65536, .f32⟩
  | .hbm, ⟨27, _⟩ => ⟨S65536, .f32⟩
  | .hbm, ⟨28, _⟩ => ⟨S_, .f32⟩
  | .hbm, ⟨29, _⟩ => ⟨S65536, .f32⟩
  | .hbm, ⟨30, _⟩ => ⟨S65536, .f32⟩
  | .hbm, ⟨31, _⟩ => ⟨S_, .f32⟩
  | .hbm, ⟨32, _⟩ => ⟨S65536, .f32⟩
  | .hbm, ⟨33, _⟩ => ⟨S65536, .f32⟩
  | .hbm, ⟨34, _⟩ => ⟨S65536, .f32⟩
  | .hbm, ⟨35, _⟩ => ⟨S_, .f32⟩
  | .hbm, ⟨36, _⟩ => ⟨S65536, .f32⟩
  | .hbm, ⟨37, _⟩ => ⟨S65536, .f32⟩
  | .hbm, ⟨38, _⟩ => ⟨S65536, .f32⟩
  | .hbm, ⟨39, _⟩ => ⟨S_, .f32⟩
  | .hbm, ⟨40, _⟩ => ⟨S65536, .f32⟩
  | .hbm, ⟨41, _⟩ => ⟨S65536, .f32⟩
  | .hbm, ⟨42, _⟩ => ⟨S_, .f32⟩
  | .hbm, ⟨43, _⟩ => ⟨S65536, .f32⟩
  | .hbm, ⟨44, _⟩ => ⟨S65536, .f32⟩
  | .hbm, ⟨45, _⟩ => ⟨S_, .f32⟩
  | .hbm, ⟨46, _⟩ => ⟨S65536, .f32⟩
  | .hbm, ⟨47, _⟩ => ⟨S65536, .f32⟩
  | .hbm, ⟨48, _⟩ => ⟨S65536, .f32⟩
  | .hbm, ⟨49, _⟩ => ⟨S65536, .f32⟩
  | .hbm, ⟨50, _⟩ => ⟨S_, .f32⟩
  | .hbm, ⟨51, _⟩ => ⟨S65536, .f32⟩
  | .hbm, ⟨52, _⟩ => ⟨S65536, .f32⟩
  | .hbm, ⟨53, _⟩ => ⟨S65536, .f32⟩
  | .hbm, ⟨54, _⟩ => ⟨S65536, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_12 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S_S65536 : S_.BroadcastsInDim S65536 (![] : Fin 0 → Fin S65536.rank)
  reducesTo_S65536_S_d0 : S65536.ReducesTo [0] S_

variable [Facts₀]

class Facts : Prop extends Facts₀ where

variable [Facts]
-- ==== Proof.Loss.lean ====
/-
  The adaptive triplet margin loss, as one function of the three argument arrays over the extended reals.

  For a sample (one row of 256 entries in each array) let d_ap, d_an, d_pn be the Euclidean distances between anchor and
  positive, anchor and negative, positive and negative: the square root of the sum of the squared differences. The
  sample's loss is

      (d_ap - (d_an + d_pn) / 2) + ((1 + 2 / (exp (4 d_ap) + eps)) + (1 + 2 / (exp (-(4 d_an) + 4) + eps)))

  and the result is the sum of the 65536 samples' losses divided by 65536. The constants are the float words both
  programs carry (4, 2, 1, eps = f32 1e-6, 65536); none of them is ever evaluated.

  The 65536 rows are also 32 consecutive blocks of 2048 rows: the sum over all rows is the sum, over the blocks, of
  each block's sum (`sum_rows_by_blocks`), in any commutative monoid.
-/
import Idealize.ShloMosaic.PureOps.Ideal
import Idealize.ShloMosaic.PureOps.Ideal.Laws
import Idealize.ShloMosaic.Lib.ValueIdx

noncomputable section

open scoped BigOperators

namespace Cert.TripletLoss

open Idealize.ShloMosaic Idealize.ShloMosaic.ValueIdx

/-- The squared Euclidean distance of two rows. -/
def sqDist (x y : Fin 256 → EReal) : EReal := ∑ k : Fin 256, (x k - y k) * (x k - y k)

/-- One margin term: `1 + 2 / (exp z + eps)`. -/
def margin (z : EReal) : EReal :=
  Ideal.ofBits .f32 0x3F800000#32
    + Ideal.div (Ideal.ofBits .f32 0x40000000#32) (Ideal.exp z + Ideal.ofBits .f32 0x358637BD#32)

/-- A sample's loss from its three squared distances (anchor-positive, anchor-negative, positive-negative). -/
def sampleLoss (sap san spn : EReal) : EReal :=
  (Ideal.sqrt sap - Ideal.div (Ideal.sqrt san + Ideal.sqrt spn) (Ideal.ofBits .f32 0x40000000#32))
    + (margin (Ideal.ofBits .f32 0x40800000#32 * Ideal.sqrt sap)
        + margin (-(Ideal.ofBits .f32 0x40800000#32 * Ideal.sqrt san) + Ideal.ofBits .f32 0x40800000#32))

/-- The loss of the sample in row `r` of three arrays of `R` rows. -/
def rowLoss {R : ℕ} (A P N : (⟨2, ![R, 256]⟩ : Shape).Idx → EReal) (r : Fin R) : EReal :=
  sampleLoss (sqDist (fun k => A (ix2 r k)) (fun k => P (ix2 r k)))
    (sqDist (fun k => A (ix2 r k)) (fun k => N (ix2 r k)))
    (sqDist (fun k => P (ix2 r k)) (fun k => N (ix2 r k)))

/-- The sum of the losses of all rows of three arrays of `R` rows. -/
def lossSum {R : ℕ} (A P N : (⟨2, ![R, 256]⟩ : Shape).Idx → EReal) : EReal := ∑ r : Fin R, rowLoss A P N r

/-- The mean loss of the 65536 samples. -/
def meanLoss (A P N : (⟨2, ![65536, 256]⟩ : Shape).Idx → EReal) : EReal :=
  Ideal.div (lossSum A P N) (Ideal.ofBits .f32 0x47800000#32)

/-- Row `q` of block `t` is row `2048 t + q` of the array. -/
abbrev rowOf (t : Fin 32) (q : Fin 2048) : Fin 65536 := ⟨t.val * 2048 + q.val, by have := t.isLt; have := q.isLt; omega⟩

/-- A sum over the 65536 rows is the sum over the 32 blocks of the sums over each block's 2048 rows. -/
theorem sum_rows_by_blocks {M : Type*} [AddCommMonoid M] (f : Fin 65536 → M) :
    ∑ r : Fin 65536, f r = ∑ t : Fin 32, ∑ q : Fin 2048, f (rowOf t q) := by
  rw [← Equiv.sum_comp (finProdFinEquiv (m := 32) (n := 2048)) f, Fintype.sum_prod_type]
  refine Finset.sum_congr rfl fun t _ => Finset.sum_congr rfl fun q _ => congrArg f (Fin.ext ?_)
  show q.val + 2048 * t.val = t.val * 2048 + q.val
  omega

end Cert.TripletLoss

end
-- ==== Proof.RefValue.lean ====
/-
  The reference computes the mean loss.

  Read one operation at a time, the reference's per-sample vector at row `r` is the sample's loss of the three squared
  distances of row `r` — each `stablehlo.reduce` along the lanes is zero plus the sum over the 256 lanes of the squared
  differences —, and its result is zero plus the sum of that vector over all rows, divided by 65536.
-/
import proofs.«114805_j57380763074766_1_alg».proof.Proof.Gen.ReferenceIdeal.Read
import proofs.«114805_j57380763074766_1_alg».proof.Proof.Loss
import Idealize.ShloMosaic.Lib.ValueIdxRank1

noncomputable section

open scoped BigOperators

namespace Cert.ReferenceIdeal.RefValue

open Cert.ReferenceIdeal Cert.ReferenceIdeal.Read Cert.TripletLoss
open Idealize.ShloMosaic Idealize.ShloMosaic.ValueIdx

/-- The reference's per-sample loss vector, at row `r`, is the loss of the sample in row `r`. -/
theorem sample_apply (A P N : (⟨2, ![65536, 256]⟩ : Shape).Idx → EReal) (r : Fin 65536) :
    val_main_v38 (F := Ideal) A P N (ix1 r) = rowLoss A P N r := by
  have h2 : ∀ k : Fin 256, idx_main_v2 (ix1 r) k = ix2 r k := fun k =>
    funext fun a => Fin.ext (by match a with | ⟨0, _⟩ => rfl | ⟨1, _⟩ => rfl)
  have h6 : ∀ k : Fin 256, idx_main_v6 (ix1 r) k = ix2 r k := fun k =>
    funext fun a => Fin.ext (by match a with | ⟨0, _⟩ => rfl | ⟨1, _⟩ => rfl)
  have h10 : ∀ k : Fin 256, idx_main_v10 (ix1 r) k = ix2 r k := fun k =>
    funext fun a => Fin.ext (by match a with | ⟨0, _⟩ => rfl | ⟨1, _⟩ => rfl)
  simp only [val_main_v38_apply, val_main_v37_apply, val_main_v36_apply, val_main_v35_apply, val_main_v34_apply,
    val_main_v33_apply, val_main_v32_apply, val_main_v31_apply, val_main_v30_apply, val_main_v29_apply,
    val_main_v28_apply, val_main_v27_apply, val_main_v26_apply, val_main_v25_apply, val_main_v24_apply,
    val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, val_main_v10_apply, val_main_v9_apply,
    val_main_v8_apply, val_main_v7_apply, val_main_v6_apply, val_main_v5_apply, val_main_v4_apply,
    val_main_v3_apply, val_main_v2_apply, val_main_v1_apply, val_main_v0_apply,
    val_main_cst_apply, val_main_cst_0_apply, val_main_cst_1_apply, val_main_cst_2_apply, val_main_cst_3_apply,
    val_main_cst_4_apply, val_main_cst_5_apply, val_main_cst_6_apply, val_main_cst_7_apply, val_main_cst_8_apply,
    val_main_cst_9_apply, val_main_cst_10_apply, val_main_cst_11_apply, h2, h6, h10,
    Ideal.addf_def, Ideal.subf_def, Ideal.mulf_def, Ideal.hostDivf_def, Ideal.hostUnary_sqrt_def,
    Ideal.hostUnary_exp_def, Ideal.hostNegf_def, Ideal.negf_def, Ideal.ofBits_def, Ideal.ofBits_zero_f32, zero_add]
  unfold rowLoss sampleLoss margin sqDist
  rfl

/-- The reference's per-sample vector summed over all its indices is the sum of the rows' losses: a rank-1 index is its
    one coordinate. -/
theorem sum_samples (A P N : (⟨2, ![65536, 256]⟩ : Shape).Idx → EReal) :
    ∑ j : S65536.Idx, val_main_v38 (F := Ideal) A P N j = lossSum A P N :=
  (Equiv.sum_comp (idxEquiv1 (n := 65536)).symm (val_main_v38 (F := Ideal) A P N)).symm.trans
    (Finset.sum_congr rfl fun r _ => sample_apply A P N r)

/-- The reference's result is the mean loss of its three arguments. -/
theorem result_eq (A P N : (⟨2, ![65536, 256]⟩ : Shape).Idx → EReal) :
    val_main_v40 (F := Ideal) A P N = fun _ => meanLoss A P N := by
  funext i
  rw [val_main_v40_apply, val_main_v39_apply]
  simp only [val_main_cst_12_apply, val_main_cst_13_apply, Ideal.hostDivf_def, Ideal.ofBits_def, Ideal.ofBits_zero_f32,
    zero_add]
  rw [sum_samples]
  rfl

end Cert.ReferenceIdeal.RefValue

end
-- ==== Proof.Pieces.lean ====
/-
  What the kernel body leaves in the output's one-entry staging buffer, as a value.

  The body ends with ONE store that covers the buffer, of the running total it loaded plus the block's sum. At the
  first grid point the body first stores zero and the load reads that zero back; at every other point the load reads
  what the point before left. Both hold at any float instance: only loads through whole buffers and covering stores
  are involved.
-/
import proofs.«114805_j57380763074766_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

/-- The zero offsets of a rank-2 rectangle. -/
theorem hz : (![0, 0] : Fin 2 → Nat) = fun _ => 0 := funext fun a => by fin_cases a <;> rfl

/-- The five columns the body computes from the three blocks, and its last store's value over a running total. -/
abbrev stored (x0 x1 x2 : Vec F S2048x256 .f32) (prev : Vec F S1x1 .f32) : Vec F S1x1 .f32 :=
  k0_pay1 (k0_pay3 x0 x1) (k0_pay4 x0 x2) (k0_pay5 x1 x2) (k0_pay6 x0 x1) (k0_pay7 x0 x2) prev

/-- At a point that is not the first: the buffer holding `xo` ends holding the body's value over `xo`. -/
theorem out_later (c : Dev nD) (i : grid0.Coords) (a1 : Memref sig .tc .vmem S2048x256 .f32) (h1 : a1.IsWhole)
    (a2 : Memref sig .tc .vmem S2048x256 .f32) (h2 : a2.IsWhole) (a3 : Memref sig .tc .vmem S2048x256 .f32) (h3 : a3.IsWhole)
    (a4 : Memref sig .tc .vmem S1x1 .f32) (h4 : a4.IsWhole) (hc : ¬cond0_0 i)
    (x0 x1 x2 : Vec F S2048x256 .f32) (xo : Vec F S1x1 .f32) :
    out0_B_3 c i a1 h1 a2 h2 a3 h3 a4 h4 hc x0 x1 x2 xo = stored x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero (S := S1x1) hz]
  simp only [View.readAt_eq_ld, h1.read_unread, h2.read_unread, h3.read_unread, h4.read_unread,
    View.ld_unit_zero (S := S2048x256) hz, View.ld_unit_zero (S := S1x1) hz]

/-- At the first point: the buffer is zeroed, the zero read back, and it ends holding the body's value over zero. -/
theorem out_first (c : Dev nD) (i : grid0.Coords) (a1 : Memref sig .tc .vmem S2048x256 .f32) (h1 : a1.IsWhole)
    (a2 : Memref sig .tc .vmem S2048x256 .f32) (h2 : a2.IsWhole) (a3 : Memref sig .tc .vmem S2048x256 .f32) (h3 : a3.IsWhole)
    (a4 : Memref sig .tc .vmem S1x1 .f32) (h4 : a4.IsWhole) (hc : cond0_0 i)
    (x0 x1 x2 : Vec F S2048x256 .f32) :
    out0_A_3 c i a1 h1 a2 h2 a3 h3 a4 h4 hc x0 x1 x2 = stored x0 x1 x2 (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S2048x256) hz]

end Cert.KernelIdeal.Pieces

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.BlockValue.lean ====
/-
  What one grid point adds: the kernel body's arithmetic on a block of 2048 rows, read at the extended reals.

  The body takes, for each of the three pairs of arrays, the lane sum of the squared differences of the two blocks, keeps
  it as a column, and takes its square root: at row `q` that is the distance of the two rows `q`. From the three distance
  columns it forms the per-row loss column, sums that column over its 2048 rows, and adds the sum to the running total
  it loaded. The kernel writes `-(4 d)` as `0 - 4 d`; on the extended reals these are the same.
-/
import proofs.«114805_j57380763074766_1_alg».proof.Proof.Gen.KernelIdeal.Skeleton
import proofs.«114805_j57380763074766_1_alg».proof.Proof.Loss
import proofs.«114805_j57380763074766_1_alg».proof.Proof.LibKeepdims
import Idealize.ShloMosaic.PureOps.Ideal.Laws
import Idealize.ShloMosaic.Lib.Pipeline.Value

noncomputable section

open scoped BigOperators

namespace Cert.KernelIdeal.BlockValue

open Cert.KernelIdeal Cert.KernelIdeal.Gen Cert.TripletLoss Cert.LibKeepdims
open Idealize.ShloMosaic Idealize.ShloMosaic.ValueIdx

/-- The index the lane reduction sums at, for row `q` and lane `k`, is `(q, k)`. -/
theorem lane_lift (q : Fin 2048) (k : Fin 256) : reduces_S2048x256_S2048.lift (ix1 q) k = ix2 q k :=
  funext fun a => Fin.ext (by match a with | ⟨0, _⟩ => rfl | ⟨1, _⟩ => rfl)

/-- The lane sum of squared differences of two blocks, kept as a column and square-rooted, is at row `q` the distance of
    the two rows `q`. -/
theorem lane_dist (x y : FVec Ideal S2048x256 .f32) (q : Fin 2048) (u : Fin 1) :
    (sqrt (shapeCast S2048x1 (multiReduction .add [1] S2048 (mulf (subf x y) (subf x y)) 0x00000000#32
        reduces_S2048x256_S2048 (.inl rfl) rfl) shapeCasts_S2048_S2048x1) : FVec Ideal S2048x1 .f32) (ix2 q u)
      = Ideal.sqrt (sqDist (fun k => x (ix2 q k)) (fun k => y (ix2 q k))) := by
  show Ideal.sqrt (shapeCast S2048x1 _ shapeCasts_S2048_S2048x1 (ix2 q u)) = _
  rw [shapeCast_a_a1_apply]
  unfold sqDist
  refine congrArg Ideal.sqrt ((Ideal.multiReduction_add_single (mulf (subf x y) (subf x y)) 0x00000000#32
    reduces_S2048x256_S2048 (.inl rfl) rfl (ix1 q)).trans ?_)
  exact Finset.sum_congr rfl fun k _ => congrArg (mulf (subf x y) (subf x y)) (lane_lift q k)

theorem dist_ap (x y : FVec Ideal S2048x256 .f32) (q : Fin 2048) (u : Fin 1) :
    k0_pay3 (F := Ideal) x y (ix2 q u) = Ideal.sqrt (sqDist (fun k => x (ix2 q k)) (fun k => y (ix2 q k))) :=
  lane_dist x y q u
theorem dist_an (x y : FVec Ideal S2048x256 .f32) (q : Fin 2048) (u : Fin 1) :
    k0_pay4 (F := Ideal) x y (ix2 q u) = Ideal.sqrt (sqDist (fun k => x (ix2 q k)) (fun k => y (ix2 q k))) :=
  lane_dist x y q u
theorem dist_pn (x y : FVec Ideal S2048x256 .f32) (q : Fin 2048) (u : Fin 1) :
    k0_pay5 (F := Ideal) x y (ix2 q u) = Ideal.sqrt (sqDist (fun k => x (ix2 q k)) (fun k => y (ix2 q k))) :=
  lane_dist x y q u

/-- The first margin term at row `q`. -/
theorem margin_sim (x y : FVec Ideal S2048x256 .f32) (q : Fin 2048) (u : Fin 1) :
    k0_pay6 (F := Ideal) x y (ix2 q u)
      = margin (Ideal.ofBits .f32 0x40800000#32 * Ideal.sqrt (sqDist (fun k => x (ix2 q k)) (fun k => y (ix2 q k)))) := by
  rw [← dist_ap x y q u]
  rfl

/-- The second margin's denominator at row `q`: the kernel's `0 - 4 d` is `-(4 d)`. -/
theorem denom_dissim (x y : FVec Ideal S2048x256 .f32) (q : Fin 2048) (u : Fin 1) :
    k0_pay7 (F := Ideal) x y (ix2 q u)
      = Ideal.exp (-(Ideal.ofBits .f32 0x40800000#32 * Ideal.sqrt (sqDist (fun k => x (ix2 q k)) (fun k => y (ix2 q k))))
          + Ideal.ofBits .f32 0x40800000#32) + Ideal.ofBits .f32 0x358637BD#32 := by
  rw [← dist_an x y q u]
  show Ideal.exp ((Ideal.ofBits .f32 0x00000000#32 - Ideal.ofBits .f32 0x40800000#32 * k0_pay4 (F := Ideal) x y (ix2 q u))
      + Ideal.ofBits .f32 0x40800000#32) + Ideal.ofBits .f32 0x358637BD#32 = _
  rw [Ideal.ofBits_zero_f32, zero_sub]

/-- The per-row loss the body forms from its five columns, at row `q`, is the loss of the sample in row `q` of the blocks. -/
theorem row_term (x0 x1 x2 : FVec Ideal S2048x256 .f32) (q : Fin 2048) (u : Fin 1) :
    (k0_pay3 (F := Ideal) x0 x1 (ix2 q u)
        - Ideal.div (k0_pay4 (F := Ideal) x0 x2 (ix2 q u) + k0_pay5 (F := Ideal) x1 x2 (ix2 q u)) (Ideal.ofBits .f32 0x40000000#32))
      + (k0_pay6 (F := Ideal) x0 x1 (ix2 q u)
          + (Ideal.ofBits .f32 0x3F800000#32 + Ideal.div (Ideal.ofBits .f32 0x40000000#32) (k0_pay7 (F := Ideal) x0 x2 (ix2 q u))))
      = rowLoss x0 x1 x2 q := by
  rw [dist_ap, dist_an, dist_pn, margin_sim, denom_dissim]
  rfl

/-- The index the row reduction sums at, for the one column `a` and row `q`, is `(q, a)`. -/
theorem col_lift (a : Fin 1) (q : Fin 2048) : reduces_S2048x1_S1.lift (ix1 a) q = ix2 q a :=
  funext fun d => Fin.ext (by match d with | ⟨0, _⟩ => rfl | ⟨1, _⟩ => rfl)

/-- THE BLOCK'S CONTRIBUTION. What the body stores, from a running total `prev` and the three blocks: `prev` plus the sum
    of the losses of the block's 2048 rows. -/
theorem block_total (x0 x1 x2 : FVec Ideal S2048x256 .f32) (prev : FVec Ideal S1x1 .f32) (j : S1x1.Idx) :
    k0_pay1 (F := Ideal) (k0_pay3 x0 x1) (k0_pay4 x0 x2) (k0_pay5 x1 x2) (k0_pay6 x0 x1) (k0_pay7 x0 x2) prev j
      = prev j + lossSum x0 x1 x2 := by
  obtain ⟨a, b, rfl⟩ : ∃ (a b : Fin 1), j = ix2 a b := ⟨j 0, j 1, eq_ix2 j⟩
  unfold k0_pay1
  show shapeCast S1x1 prev shapeCasts_S1x1_S1x1 (ix2 a b)
      + shapeCast S1x1 (multiReduction (F := Ideal) .add [0] S1 _ 0x00000000#32 reduces_S2048x1_S1 (.inl rfl) rfl) shapeCasts_S1_S1x1 (ix2 a b) = _
  rw [shapeCast_self, shapeCast_a_a1_apply]
  refine congrArg (prev (ix2 a b) + ·) ((Ideal.multiReduction_add_single _ 0x00000000#32 reduces_S2048x1_S1 (.inl rfl) rfl
    (ix1 a)).trans ?_)
  unfold lossSum
  refine Finset.sum_congr rfl fun q _ => ?_
  refine (congrArg _ (col_lift a q)).trans ?_
  exact row_term x0 x1 x2 q a

end Cert.KernelIdeal.BlockValue

end
-- ==== Proof.BlockSums.lean ====
/-
  The running total as a sum over a range of blocks.

  `blockLoss A P N s` is the sum of the losses of the 2048 rows of block `s` (zero for `s` past the last block), so the
  total after grid point `n` is the sum of `blockLoss` over `s ≤ n`, and over all 32 blocks it is the sum over all rows.
-/
import proofs.«114805_j57380763074766_1_alg».proof.Proof.Loss

noncomputable section

open scoped BigOperators

namespace Cert.TripletLoss

open Idealize.ShloMosaic Idealize.ShloMosaic.ValueIdx

/-- The sum of the losses of block `s`'s rows. -/
def blockLoss (A P N : (⟨2, ![65536, 256]⟩ : Shape).Idx → EReal) (s : ℕ) : EReal :=
  if h : s < 32 then ∑ q : Fin 2048, rowLoss A P N (rowOf ⟨s, h⟩ q) else 0

theorem blockLoss_of_lt (A P N : (⟨2, ![65536, 256]⟩ : Shape).Idx → EReal) {s : ℕ} (h : s < 32) :
    blockLoss A P N s = ∑ q : Fin 2048, rowLoss A P N (rowOf ⟨s, h⟩ q) := dif_pos h

/-- The 32 blocks' sums add up to the sum over all rows. -/
theorem sum_blockLoss (A P N : (⟨2, ![65536, 256]⟩ : Shape).Idx → EReal) :
    ∑ s ∈ Finset.range 32, blockLoss A P N s = lossSum A P N := by
  rw [Finset.sum_range]
  unfold lossSum
  rw [sum_rows_by_blocks]
  exact Finset.sum_congr rfl fun t _ => blockLoss_of_lt A P N t.isLt

/-- The same, with the last block's number given by an equation. -/
theorem sum_blockLoss_upto (A P N : (⟨2, ![65536, 256]⟩ : Shape).Idx → EReal) (n : ℕ) (hn : n = 31) :
    ∑ s ∈ Finset.range (n + 1), blockLoss A P N s = lossSum A P N := by
  subst hn
  exact sum_blockLoss A P N

end Cert.TripletLoss

end
-- ==== Proof.KernelValue.lean ====
/-
  The kernel's result is the mean loss.

  Grid point `t` of the one pallas_call reads block `t` of each argument array: rows `2048 t` to `2048 t + 2047`. The
  one-entry output block never moves; the first point zeroes it, every point adds its block's sum of losses to it, and
  only the last point writes it back. So after point `n` the staging buffer holds the sum of the first `n + 1` blocks'
  sums (by induction on the point), after the last point the sum over all 65536 rows, which is what the result array
  ends holding; the two host lines after the call reshape that one entry to a scalar and divide it by 65536.
-/
import proofs.«114805_j57380763074766_1_alg».proof.Proof.Gen.KernelIdeal.Frame
import proofs.«114805_j57380763074766_1_alg».proof.Proof.Pieces
import proofs.«114805_j57380763074766_1_alg».proof.Proof.BlockValue
import proofs.«114805_j57380763074766_1_alg».proof.Proof.BlockSums
import Idealize.ShloMosaic.Lib.Pipeline.Value
import Idealize.ShloMosaic.Lib.StableHlo.Run

noncomputable section

open scoped BigOperators

namespace Cert.KernelIdeal.KernelValue

open Cert.KernelIdeal Cert.KernelIdeal.Gen Cert.TripletLoss
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three argument arrays as the call finds them on core `c`. -/
abbrev anchor (c : Dev nD) : FVec Ideal S65536x256 .f32 := V m c main_arg0
abbrev positive (c : Dev nD) : FVec Ideal S65536x256 .f32 := V m c main_arg1
abbrev negative (c : Dev nD) : FVec Ideal S65536x256 .f32 := V m c main_arg2

/-- Their blocks at grid point `t`. -/
abbrev blkA (c : Dev nD) (t : Fin cfg0.N) : FVec Ideal S2048x256 .f32 := iblk m c 0 t
abbrev blkP (c : Dev nD) (t : Fin cfg0.N) : FVec Ideal S2048x256 .f32 := iblk m c 1 t
abbrev blkN (c : Dev nD) (t : Fin cfg0.N) : FVec Ideal S2048x256 .f32 := iblk m c 2 t

/-- The printed index maps, decided over the grid: block `t` of each input is block row `t`, block column 0; the
    output's block index is always (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- Entry `(q, k)` of the anchor's block at point `t` is entry `(2048 t + q, k)` of the array. -/
theorem blkA_apply (c : Dev nD) (t : Fin cfg0.N) (ht : t.val < 32) (q : Fin 2048) (k : Fin 256) :
    blkA m c t (ix2 q k) = anchor m c (ix2 (rowOf ⟨t.val, ht⟩ q) k) := by
  obtain ⟨e0, e1, -⟩ := idx_facts t
  show V m c main_arg0 (((cfg0.win 0).blk t).view.emb (ix2 q k)) = V m c main_arg0 _
  refine congrArg (V m c main_arg0) (funext fun a => Fin.ext ?_)
  match a with
  | ⟨0, _⟩ => show win0_0.index t (0 : Fin 2) * 2048 + 1 * q.val = t.val * 2048 + q.val; omega
  | ⟨1, _⟩ => show win0_0.index t (1 : Fin 2) * 256 + 1 * k.val = k.val; omega

/-- The same for the positive's block. -/
theorem blkP_apply (c : Dev nD) (t : Fin cfg0.N) (ht : t.val < 32) (q : Fin 2048) (k : Fin 256) :
    blkP m c t (ix2 q k) = positive m c (ix2 (rowOf ⟨t.val, ht⟩ q) k) := by
  obtain ⟨-, -, e0, e1, -⟩ := idx_facts t
  show V m c main_arg1 (((cfg0.win 1).blk t).view.emb (ix2 q k)) = V m c main_arg1 _
  refine congrArg (V m c main_arg1) (funext fun a => Fin.ext ?_)
  match a with
  | ⟨0, _⟩ => show win0_1.index t (0 : Fin 2) * 2048 + 1 * q.val = t.val * 2048 + q.val; omega
  | ⟨1, _⟩ => show win0_1.index t (1 : Fin 2) * 256 + 1 * k.val = k.val; omega

/-- The same for the negative's block. -/
theorem blkN_apply (c : Dev nD) (t : Fin cfg0.N) (ht : t.val < 32) (q : Fin 2048) (k : Fin 256) :
    blkN m c t (ix2 q k) = negative m c (ix2 (rowOf ⟨t.val, ht⟩ q) k) := by
  obtain ⟨-, -, -, -, e0, e1, -⟩ := idx_facts t
  show V m c main_arg2 (((cfg0.win 2).blk t).view.emb (ix2 q k)) = V m c main_arg2 _
  refine congrArg (V m c main_arg2) (funext fun a => Fin.ext ?_)
  match a with
  | ⟨0, _⟩ => show win0_2.index t (0 : Fin 2) * 2048 + 1 * q.val = t.val * 2048 + q.val; omega
  | ⟨1, _⟩ => show win0_2.index t (1 : Fin 2) * 256 + 1 * k.val = k.val; omega

/-- The sum of the losses of the rows of the blocks at point `t` is block `t`'s sum of the arrays' row losses. -/
theorem block_loss (c : Dev nD) (t : Fin cfg0.N) (ht : t.val < 32) :
    lossSum (blkA m c t) (blkP m c t) (blkN m c t) = blockLoss (anchor m c) (positive m c) (negative m c) t.val := by
  rw [blockLoss_of_lt _ _ _ ht]
  unfold lossSum
  refine Finset.sum_congr rfl fun q _ => ?_
  unfold rowLoss
  simp only [blkA_apply m c t ht, blkP_apply m c t ht, blkN_apply m c t ht]

/-- THE RUNNING TOTAL. After grid point `n` the output's staging buffer holds, in its one entry, the sum of the first
    `n + 1` blocks' sums: the first point leaves `0 +` its block's sum, every later point adds its own to what the point
    before left. -/
theorem outsAt_eq (c : Dev nD) : ∀ (n : ℕ) (h : n < cfg0.N),
    (outsAt0 m c n h : FVec Ideal S1x1 .f32)
      = fun _ => ∑ s ∈ Finset.range (n + 1), blockLoss (anchor m c) (positive m c) (negative m c) s
  | 0, h => by
    funext j
    refine (congrFun ((outsAt0_A m c ⟨0, h⟩ rfl).trans
      (Pieces.out_first (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) ((hcond0_0 ⟨0, h⟩).mpr rfl)
        (iblk m c 0 ⟨0, h⟩) (iblk m c 1 ⟨0, h⟩) (iblk m c 2 ⟨0, h⟩))) j).trans ?_
    refine (BlockValue.block_total (blkA m c ⟨0, h⟩) (blkP m c ⟨0, h⟩) (blkN m c ⟨0, h⟩) (k0_pay2 (F := Ideal)) j).trans ?_
    rw [block_loss m c ⟨0, h⟩ (Nat.succ_pos 31), Finset.sum_range_one]
    show Ideal.ofBits .f32 0x00000000#32 + _ = _
    rw [Ideal.ofBits_zero_f32, zero_add]
  | n + 1, h => by
    have hN : cfg0.N = 32 := N_0
    have hB : ¬(⟨n + 1, h⟩ : Fin cfg0.N).val % 32 = 0 := by dsimp only; omega
    funext j
    refine (congrFun ((outsAt0_B m c ⟨n + 1, h⟩ hB).trans
      (Pieces.out_later (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (ms0_3 ⟨n + 1, h⟩) (hs0_3 ⟨n + 1, h⟩)
        (fun hh => hB ((hcond0_0 ⟨n + 1, h⟩).mp hh))
        (iblk m c 0 ⟨n + 1, h⟩) (iblk m c 1 ⟨n + 1, h⟩) (iblk m c 2 ⟨n + 1, h⟩)
        (outsAt0 m c ((⟨n + 1, h⟩ : Fin cfg0.N).val - 1)
          (Nat.lt_of_le_of_lt (Nat.sub_le _ _) (⟨n + 1, h⟩ : Fin cfg0.N).isLt)))) j).trans ?_
    refine (BlockValue.block_total (blkA m c ⟨n + 1, h⟩) (blkP m c ⟨n + 1, h⟩) (blkN m c ⟨n + 1, h⟩)
      (outsAt0 m c n (Nat.lt_of_succ_lt h)) j).trans ?_
    rw [block_loss m c ⟨n + 1, h⟩ (by dsimp only; omega), outsAt_eq c n (Nat.lt_of_succ_lt h), Finset.sum_range_succ _ (n + 1)]

/-- The sum of the losses of all 65536 rows of the arrays on core `c`. -/
abbrev total (c : Dev nD) : EReal := lossSum (anchor m c) (positive m c) (negative m c)

/-- The result array's contents after the call: its one entry is the total. -/
abbrev result (c : Dev nD) : Buf (Elt Ideal) ((c : Thread nD τ).loc main_v0) := fun _ => total m c

/-- The one write-back, at the last point, writes the total. -/
theorem flushed_eq (c : Dev nD) (t : Fin cfg0.N) (hf : (cfg0.win 3).flush t = true) :
    (dats m 0 c).flushed 3 t = ((cfg0.win 3).blk t).view.read (Elt Ideal) (result m c) := by
  have hN : cfg0.N = 32 := N_0
  have h31 : t.val = 31 := by have := (flush0_3 t).mp hf; have := t.isLt; omega
  show (cfg0.win 3).cut (grid0.coords t) ((dats m 0 c).after 3 t) = _
  rw [after0_3, outsAt_eq m c t.val t.isLt]
  have e : (fun _ : S1x1.Idx => ∑ s ∈ Finset.range (t.val + 1), blockLoss (anchor m c) (positive m c) (negative m c) s)
      = result m c := funext fun _ => sum_blockLoss_upto _ _ _ t.val h31
  rw [e]
  obtain ⟨-, -, -, -, -, -, e6, e7⟩ := idx_facts t
  have hz' : (fun a => win0_3.index t a * main_v0.ty.shape.size a) = fun _ => 0 := funext fun a => by
    match a with
    | ⟨0, _⟩ => show win0_3.index t (0 : Fin 2) * 1 = 0; omega
    | ⟨1, _⟩ => show win0_3.index t (1 : Fin 2) * 1 = 0; omega
  exact (Memref.read_access_unit_zero (Elt Ideal) main_v0 hz' (fun a => by rw [congrFun hz' a]; simp) (result m c)).symm

/-- So the result array ends holding the total: the last point's block is the whole one-entry array. -/
theorem final_out (c : Dev nD) : (dats m 0 c).arrAt 3 cfg0.N = result m c :=
  (dats m 0 c).arrAt_eq_of_cover 3 (result m c) (flushed_eq m c) fun i => by
    have hN : cfg0.N = 32 := N_0
    have h31 : 31 < cfg0.N := by omega
    obtain ⟨-, -, -, -, -, -, e6, e7⟩ := idx_facts ⟨31, h31⟩
    refine ⟨⟨31, h31⟩, (flush0_3 _).mpr rfl, ?_⟩
    show i ∈ ((View.whole main_v0).slice (win0_3.rect ⟨31, h31⟩)).set
    rw [View.set_slice_whole, Rect.mem_set_unit]
    intro a
    have h0 : (i 0 : Nat) < 1 := (i 0).isLt
    have h1 : (i 1 : Nat) < 1 := (i 1).isLt
    match a with
    | ⟨0, _⟩ =>
      show win0_3.index ⟨31, h31⟩ (0 : Fin 2) * 1 ≤ (i 0 : Nat) ∧ (i 0 : Nat) < win0_3.index ⟨31, h31⟩ (0 : Fin 2) * 1 + 1
      omega
    | ⟨1, _⟩ =>
      show win0_3.index ⟨31, h31⟩ (1 : Fin 2) * 1 ≤ (i 1 : Nat) ∧ (i 1 : Nat) < win0_3.index ⟨31, h31⟩ (1 : Fin 2) * 1 + 1
      omega

/-- The result buffer is an unscoped buffer that is no array of the call. -/
theorem mem_rest : main_v2 ∈ Pipeline.restRefs sig spec0 :=
  Pipeline.mem_restRefs_of main_v2 rfl (fun w => by fin_cases w <;> decide)

/-- The two host lines after the call: the one-entry array reshaped to a scalar and divided by 65536 is the mean loss. -/
theorem tail_eq (c : Dev nD) :
    Pipeline.afterTail₀ cfgs (dats m) 0 (V0 m) [hostOps1] c main_v2
      = fun _ => meanLoss (anchor m c) (positive m c) (negative m c) := by
  unfold Pipeline.afterTail₀
  show StableHlo.after hostOps1 _ (Proc.devRef .tc main_v2) = _
  after_results
  funext i
  unfold meanLoss
  show Ideal.div (shapeCast S_ (Pipeline.withArrays spec0 c (V0 m c) (fun w => (dats m 0 c).arrAt w cfg0.N)
      (Proc.devRef .tc (Pipeline.arrRef spec0 3))) shapeCasts_S1x1_S_ i) (Ideal.ofBits .f32 0x47800000#32) = _
  rw [Pipeline.withArrays_arr spec0 launch0.win.arr_inj c _ _ 3, final_out]
  rfl

/-- THE RUN, READ: every weakly fair execution ends with the result at the mean loss of the arguments' launch contents,
    the arguments unchanged. -/
theorem run : θ_run defs (onTc (τ := τ) (main (F := Ideal))) ⟨m, fun _ => 0, ρ⟩ fun r => ∀ c : Dev nD,
      r.2.mem ((c : Thread nD τ).loc main_v2)
        = (fun _ => meanLoss (m ((c : Thread nD τ).loc main_arg0)) (m ((c : Thread nD τ).loc main_arg1))
            (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).2 main_v2 mem_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelValue

end
-- ==== Proof.lean ====
/-
  The adaptive triplet margin loss kernel against its jnp reference, over the extended reals.

  Both programs compute, for three arrays of 65536 samples of 256 entries, the mean over the samples of

      (d_ap - (d_an + d_pn) / 2) + ((1 + 2 / (exp (4 d_ap) + eps)) + (1 + 2 / (exp (-(4 d_an) + 4) + eps)))

  where d_ap, d_an, d_pn are the Euclidean distances between the sample's anchor, positive and negative rows
  (Proof/Loss.lean). The reference does so in one pass over all rows (Proof/RefValue.lean). The kernel walks 32 blocks
  of 2048 rows, adds each block's sum of losses into a one-entry accumulator that it zeroes at the first block and
  writes back after the last, and divides by 65536 on the host (Proof/BlockValue.lean: one block's contribution;
  Proof/Pieces.lean: what the body leaves in the accumulator; Proof/KernelValue.lean: the running total by induction
  on the block, the result array, the host's division). The two results are the same extended real because a sum over
  all rows is the sum over the blocks of each block's sum (addition on the extended reals is commutative and
  associative; no finiteness is used), and the kernel's `0 - x` is the reference's `-x`. The same float words stand
  for the constants on both sides and are never evaluated, but for the zero word.

  The three frames are the generated ones (the reference's is its generated run with the result dropped); the
  idealization rewrote nothing, so `preserves` is `True`.
-/
import proofs.«114805_j57380763074766_1_alg».proof.Defs
import proofs.«114805_j57380763074766_1_alg».proof.Proof.Gen.Kernel
import proofs.«114805_j57380763074766_1_alg».proof.Proof.Gen.Kernel.Skeleton
import proofs.«114805_j57380763074766_1_alg».proof.Proof.Gen.Kernel.Launch
import proofs.«114805_j57380763074766_1_alg».proof.Proof.Gen.Kernel.Points
import proofs.«114805_j57380763074766_1_alg».proof.Proof.Gen.Kernel.Frame
import proofs.«114805_j57380763074766_1_alg».proof.Proof.Gen.KernelIdeal
import proofs.«114805_j57380763074766_1_alg».proof.Proof.Gen.KernelIdeal.Skeleton
import proofs.«114805_j57380763074766_1_alg».proof.Proof.Gen.KernelIdeal.Launch
import proofs.«114805_j57380763074766_1_alg».proof.Proof.Gen.KernelIdeal.Points
import proofs.«114805_j57380763074766_1_alg».proof.Proof.Gen.KernelIdeal.Frame
import proofs.«114805_j57380763074766_1_alg».proof.Proof.Gen.ReferenceIdeal
import proofs.«114805_j57380763074766_1_alg».proof.Proof.Gen.Pre_finite_inputs
import proofs.«114805_j57380763074766_1_alg».proof.Proof.Gen.ReferenceIdeal.Run
import proofs.«114805_j57380763074766_1_alg».proof.Proof.Gen.ReferenceIdeal.Read
import proofs.«114805_j57380763074766_1_alg».proof.Proof.RefValue
import proofs.«114805_j57380763074766_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the three arrays, the kernel ends at the mean loss of its arrays and the
    reference at the mean loss of its own, which are the same arrays. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v40_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
